-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S128x256 .f32) (main_arg3 : FVec F S128 .f32) (main_arg4 : FVec F S64x128 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x64 : Shape := ⟨2, ![1, 64]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S50000x64 : Shape := ⟨2, ![50000, 64]⟩
abbrev S5000x64 : Shape := ⟨2, ![5000, 64]⟩
abbrev S850000x64 : Shape := ⟨2, ![850000, 64]⟩
abbrev S5000 : Shape := ⟨1, ![5000]⟩
abbrev S5000x1 : Shape := ⟨2, ![5000, 1]⟩

abbrev nBuf : Space → Nat
  | .hbm => 85
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S1x128, .f32⟩
  | .hbm, ⟨49, _⟩ => ⟨S1x64, .f32⟩
  | .hbm, ⟨50, _⟩ => ⟨S50000x128, .f32⟩
  | .hbm, ⟨51, _⟩ => ⟨S850000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S50000x64, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S64x128, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S128_S1x128 : S128.ShapeCasts S1x128
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S128x256_S5000x128_1_1_0_0_n_n_wf : DotDims.WF S5000x256 S128x256 S5000x128 [1] [1] [0] [0] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S64x128_S5000x64_1_1_0_0_n_n_wf : DotDims.WF S5000x128 S64x128 S5000x64 [1] [1] [0] [0] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S256x128 : Shape := ⟨2, ![256, 128]⟩
abbrev S50000x128 : Shape := ⟨2, ![50000, 128]⟩
abbrev S1x128 : Shape := ⟨2, ![1, 128]⟩
abbrev S850000x128 : Shape := ⟨2, ![850000, 128]⟩
abbrev S128x64 : Shape := ⟨2, ![128, 64]⟩
abbrev S50000x64 : Shape := ⟨2, ![50000, 64]⟩
abbrev S1x64 : Shape := ⟨2, ![1, 64]⟩
abbrev S850000x64 : Shape := ⟨2, ![850000, 64]⟩
abbrev S50000x1 : Shape := ⟨2, ![50000, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S256x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S128x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S850000x1, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x64, .f32⟩
  | .hbm, ⟨87, _⟩ => ⟨S850000x64, .f32⟩
  | .hbm, ⟨88, _⟩ => ⟨S850000x64, .f32⟩
  | .hbm, ⟨89, _⟩ => ⟨S_, .f32⟩
  | .hbm, ⟨90, _⟩ => ⟨S50000x64, .f32⟩
  | .hbm, ⟨91, _⟩ => ⟨S850000x1, .i32⟩
  | .hbm, ⟨92, _⟩ => ⟨S50000x64, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000, .f32⟩
  | .hbm, ⟨104, _⟩ => ⟨S50000x1, .f32⟩
  | .hbm, ⟨105, _⟩ => ⟨S50000x1, .f32⟩
  | .hbm, ⟨106, _⟩ => ⟨S50000x64, .f32⟩
  | .hbm, ⟨107, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_call1_cst_0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_cst_1 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_v70 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RefFold.lean ====
/-
  The reference program's value: what its result buffer holds when @main returns, operation by operation.

  @main is a straight line of 102 array operations. Run in six consecutive stretches, each stretch reads a handful of
  buffers the earlier ones wrote and writes the buffers of its own operations; a buffer a stretch does not write
  keeps its contents. Stretch by stretch the buffers that matter hold: the edge endpoints with self loops and the
  edge weights; the first affine layer; its aggregation over the edges; the second affine layer of the clamped
  aggregate; its aggregation; and last the row-wise logarithm of the softmax, each as the function of the six
  arguments that the operations up to there compose.
-/
import proofs.«163223_j61306363183616_1_alg».proof.Proof.RefRead
import Idealize.ShloMosaic.Lib.Pipeline.Frame

set_option maxRecDepth 16384

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- After the one-pass evaluation of a stretch, the operands inside a concatenation's list are still unevaluated
    (a rewrite under the list's dependent pairs is not a congruence): this finishes them one rewrite at a time. -/
macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The buffers after the first stretch, and after each later one. -/
def R1 : Valuation τ sig (Elt F) := after ops0 (launchContents m c)
def R2 : Valuation τ sig (Elt F) := after ops1 (R1 m c)
def R3 : Valuation τ sig (Elt F) := after ops2 (R2 m c)
def R4 : Valuation τ sig (Elt F) := after ops3 (R3 m c)
def R5 : Valuation τ sig (Elt F) := after ops4 (R4 m c)
def R6 : Valuation τ sig (Elt F) := after ops5 (R5 m c)

/-- Running all the operations is running the six stretches one after the other. -/
theorem fold_eq : after ops (launchContents m c) = R6 m c := by
  unfold R6 R5 R4 R3 R2 R1
  rw [show (ops : List (HloOp τ sig (Elt F))) = ops0 ++ (ops1 ++ (ops2 ++ (ops3 ++ (ops4 ++ ops5)))) from rfl]
  rw [StableHlo.after_append, StableHlo.after_append, StableHlo.after_append, StableHlo.after_append, StableHlo.after_append]

/-- A value written to a typed reference's buffer and read back is the value: the two transports along the
    reference's type equation cancel. -/
theorem ofBuf_toBuf {T : BufTy} (x : TRef sig T) (v : T.Contents (Elt F)) : x.ofBuf (x.toBuf v) = v :=
  (cast_cast _ _ v).trans (cast_eq _ v)

/-! ## After the first stretch -/

theorem R1_sources : R1 m c (Proc.devRef .tc main_v3) = val_main_v3 (F := F) (m ((c.tc : Thread nD τ).loc main_arg1)) := by
  unfold R1; after_results; rfl
theorem R1_targets : R1 m c (Proc.devRef .tc main_v6) = val_main_v6 (F := F) (m ((c.tc : Thread nD τ).loc main_arg1)) := by
  unfold R1; after_results; rfl
set_option maxHeartbeats 4000000 in
theorem R1_weights : R1 m c (Proc.devRef .tc main_v32) = val_main_v32 (F := F) (m ((c.tc : Thread nD τ).loc main_arg1)) := by
  unfold R1
  after_results_simp
  finish_results
  rfl
set_option maxHeartbeats 4000000 in
theorem R1_args : R1 m c (Proc.devRef .tc main_arg0) = (m ((c.tc : Thread nD τ).loc main_arg0)) ∧ R1 m c (Proc.devRef .tc main_arg2) = (m ((c.tc : Thread nD τ).loc main_arg2)) ∧ R1 m c (Proc.devRef .tc main_arg3) = (m ((c.tc : Thread nD τ).loc main_arg3))
    ∧ R1 m c (Proc.devRef .tc main_arg4) = (m ((c.tc : Thread nD τ).loc main_arg4)) ∧ R1 m c (Proc.devRef .tc main_arg5) = (m ((c.tc : Thread nD τ).loc main_arg5)) := by
  refine ⟨?_, ?_, ?_, ?_, ?_⟩ <;>
  · unfold R1; after_results_simp <;> rfl

/-! ## After the second stretch: the first affine layer -/

theorem R2_layer1 : R2 m c (Proc.devRef .tc main_v37) = val_main_v37 (F := F) (m ((c.tc : Thread nD τ).loc main_arg0)) (m ((c.tc : Thread nD τ).loc main_arg2)) (m ((c.tc : Thread nD τ).loc main_arg3)) := by
  obtain ⟨h0, h2, h3, -, -⟩ := R1_args m c
  unfold R2; after_results; rw [h0, h2, h3]; rfl
set_option maxHeartbeats 4000000 in
theorem R2_keeps : R2 m c (Proc.devRef .tc main_v3) = val_main_v3 (F := F) (m ((c.tc : Thread nD τ).loc main_arg1)) ∧ R2 m c (Proc.devRef .tc main_v6) = val_main_v6 (F := F) (m ((c.tc : Thread nD τ).loc main_arg1))
    ∧ R2 m c (Proc.devRef .tc main_v32) = val_main_v32 (F := F) (m ((c.tc : Thread nD τ).loc main_arg1)) ∧ R2 m c (Proc.devRef .tc main_arg4) = (m ((c.tc : Thread nD τ).loc main_arg4)) ∧ R2 m c (Proc.devRef .tc main_arg5) = (m ((c.tc : Thread nD τ).loc main_arg5)) := by
  obtain ⟨-, -, -, h4, h5⟩ := R1_args m c
  refine ⟨?_, ?_, ?_, ?_, ?_⟩
  · unfold R2; after_results_simp; exact R1_sources m c
  · unfold R2; after_results_simp; exact R1_targets m c
  · unfold R2; after_results_simp; exact R1_weights m c
  · unfold R2; after_results_simp; exact h4
  · unfold R2; after_results_simp; exact h5

/-! ## After the third stretch: the first aggregation -/

set_option maxHeartbeats 4000000 in
theorem R3_hidden : R3 m c (Proc.devRef .tc main_v50) = val_main_v50 (F := F) (m ((c.tc : Thread nD τ).loc main_arg0)) (m ((c.tc : Thread nD τ).loc main_arg1)) (m ((c.tc : Thread nD τ).loc main_arg2)) (m ((c.tc : Thread nD τ).loc main_arg3)) := by
  obtain ⟨h3, h6, h32, -, -⟩ := R2_keeps m c
  unfold R3; after_results_simp; rw [h32, h3, R2_layer1 m c, h6]; rfl
set_option maxHeartbeats 4000000 in
theorem R3_keeps : R3 m c (Proc.devRef .tc main_v3) = val_main_v3 (F := F) (m ((c.tc : Thread nD τ).loc main_arg1)) ∧ R3 m c (Proc.devRef .tc main_v6) = val_main_v6 (F := F) (m ((c.tc : Thread nD τ).loc main_arg1))
    ∧ R3 m c (Proc.devRef .tc main_v32) = val_main_v32 (F := F) (m ((c.tc : Thread nD τ).loc main_arg1)) ∧ R3 m c (Proc.devRef .tc main_arg4) = (m ((c.tc : Thread nD τ).loc main_arg4)) ∧ R3 m c (Proc.devRef .tc main_arg5) = (m ((c.tc : Thread nD τ).loc main_arg5)) := by
  obtain ⟨h3, h6, h32, h4, h5⟩ := R2_keeps m c
  refine ⟨?_, ?_, ?_, ?_, ?_⟩
  · unfold R3; after_results_simp; exact h3
  · unfold R3; after_results_simp; exact h6
  · unfold R3; after_results_simp; exact h32
  · unfold R3; after_results_simp; exact h4
  · unfold R3; after_results_simp; exact h5

/-! ## After the fourth stretch: the second affine layer -/

theorem R4_layer2 : R4 m c (Proc.devRef .tc main_v56) = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨-, -, -, h4, h5⟩ := R3_keeps m c
  unfold R4; after_results; rw [R3_hidden m c, h4, h5]
  simp only [TRef.toBuf, TRef.ofBuf, cast_eq]
  rfl
set_option maxHeartbeats 4000000 in
theorem R4_keeps : R4 m c (Proc.devRef .tc main_v3) = val_main_v3 (F := F) (m ((c.tc : Thread nD τ).loc main_arg1)) ∧ R4 m c (Proc.devRef .tc main_v6) = val_main_v6 (F := F) (m ((c.tc : Thread nD τ).loc main_arg1))
    ∧ R4 m c (Proc.devRef .tc main_v32) = val_main_v32 (F := F) (m ((c.tc : Thread nD τ).loc main_arg1)) := by
  obtain ⟨h3, h6, h32, -, -⟩ := R3_keeps m c
  refine ⟨?_, ?_, ?_⟩
  · unfold R4; after_results_simp; exact h3
  · unfold R4; after_results_simp; exact h6
  · unfold R4; after_results_simp; exact h32

/-! ## After the fifth stretch: the second aggregation -/

set_option maxHeartbeats 4000000 in
theorem R5_logits : R5 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨h3, h6, h32⟩ := R4_keeps m c
  unfold R5; after_results_simp; rw [h32, h3, R4_layer2 m c, h6]; rfl

/-! ## After the last stretch: the result -/

set_option maxHeartbeats 2000000 in
theorem R6_result : R6 m c (Proc.devRef .tc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hZ : (TRef.of (T := ⟨S50000x64, .f32⟩) main_v69).ofBuf (R5 m c (Proc.devRef .tc main_v69))
      = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (cast_eq _ _).trans (R5_logits m c)
  unfold R6
  after_results_simp
  rw [hZ]
  simp only [ofBuf_toBuf]
  refine (cast_eq _ _).trans ?_
  rfl

/-- What the result buffer holds after all the operations: the last stage, as a function of the six arguments. -/
theorem result_eq : after ops (launchContents m c) (Proc.devRef .tc main_v70)
    = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [fold_eq m c]; exact R6_result m c

end Cert.ReferenceIdeal.Fold

end
-- ==== Proof.Spec.lean ====
/-
  The arrays a two-layer graph convolution is made of, as functions on the extended reals.

  An affine layer sends the node features `x` [n, k] to `x · wᵀ + b` [n, o]: entry (r, q) is the sum over the
  input channels `j` of `x[r, j] · w[q, j]`, plus `b[q]`. The second layer first clamps its input at zero from
  below. The last step takes, row by row, the logarithm of the softmax: with `M r` the largest entry of row `r`
  (folded from -∞), entry (r, q) is `(z[r, q] - M r) - log (Σ_j exp (z[r, j] - M r))`.
  Everything here is stated over literal extents, index by index.
-/
import Idealize.ShloMosaic.PureOps.Ideal
import Idealize.ShloMosaic.Lib.ValueIdx

noncomputable section

namespace Cert.Gcn

open Idealize.ShloMosaic Idealize.ShloMosaic.ValueIdx

/-- The first affine layer at row `r`, output channel `q`: `Σ_j x[r, j] · w[q, j] + b[q]`, 256 input channels. -/
def affine1At (x : FVec Ideal ⟨2, ![50000, 256]⟩ .f32) (w : FVec Ideal ⟨2, ![128, 256]⟩ .f32)
    (b : FVec Ideal ⟨1, ![128]⟩ .f32) (r : Fin 50000) (q : Fin 128) : EReal :=
  (∑ j : Fin 256, x (ix2 r j) * w (ix2 q j)) + b (ix1 q)

/-- The first affine layer as an array [50000, 128]. -/
def affine1 (x : FVec Ideal ⟨2, ![50000, 256]⟩ .f32) (w : FVec Ideal ⟨2, ![128, 256]⟩ .f32)
    (b : FVec Ideal ⟨1, ![128]⟩ .f32) : FVec Ideal ⟨2, ![50000, 128]⟩ .f32 :=
  fun i => affine1At x w b ⟨(i 0).val, (i 0).isLt⟩ ⟨(i 1).val, (i 1).isLt⟩

theorem affine1_ix2 (x : FVec Ideal ⟨2, ![50000, 256]⟩ .f32) (w : FVec Ideal ⟨2, ![128, 256]⟩ .f32)
    (b : FVec Ideal ⟨1, ![128]⟩ .f32) (r : Fin 50000) (q : Fin 128) :
    affine1 x w b (ix2 r q) = affine1At x w b r q := rfl

/-- The second affine layer at row `r`, output channel `q`, its input clamped at zero from below:
    `Σ_j max(h[r, j], 0) · w[q, j] + b[q]`, 128 input channels. -/
def affine2At (h : FVec Ideal ⟨2, ![50000, 128]⟩ .f32) (w : FVec Ideal ⟨2, ![64, 128]⟩ .f32)
    (b : FVec Ideal ⟨1, ![64]⟩ .f32) (r : Fin 50000) (q : Fin 64) : EReal :=
  (∑ j : Fin 128, max (h (ix2 r j)) 0 * w (ix2 q j)) + b (ix1 q)

/-- The second affine layer as an array [50000, 64]. -/
def affine2 (h : FVec Ideal ⟨2, ![50000, 128]⟩ .f32) (w : FVec Ideal ⟨2, ![64, 128]⟩ .f32)
    (b : FVec Ideal ⟨1, ![64]⟩ .f32) : FVec Ideal ⟨2, ![50000, 64]⟩ .f32 :=
  fun i => affine2At h w b ⟨(i 0).val, (i 0).isLt⟩ ⟨(i 1).val, (i 1).isLt⟩

theorem affine2_ix2 (h : FVec Ideal ⟨2, ![50000, 128]⟩ .f32) (w : FVec Ideal ⟨2, ![64, 128]⟩ .f32)
    (b : FVec Ideal ⟨1, ![64]⟩ .f32) (r : Fin 50000) (q : Fin 64) :
    affine2 h w b (ix2 r q) = affine2At h w b r q := rfl

/-- The largest entry of row `r` of `z`, folded from -∞ (the f32 pattern of -∞). -/
def rowMax (z : FVec Ideal ⟨2, ![50000, 64]⟩ .f32) (r : Fin 50000) : EReal :=
  (Finset.univ : Finset (Fin 64)).fold max (Ideal.ofBits .f32 0xFF800000#32) (fun j => z (ix2 r j))

/-- The logarithm of the softmax of row `r` at column `q`. -/
def logSoftmaxAt (z : FVec Ideal ⟨2, ![50000, 64]⟩ .f32) (r : Fin 50000) (q : Fin 64) : EReal :=
  (z (ix2 r q) - rowMax z r) - Ideal.log (∑ j : Fin 64, Ideal.exp (z (ix2 r j) - rowMax z r))

/-- The row-wise logarithm of the softmax as an array [50000, 64]. -/
def logSoftmax (z : FVec Ideal ⟨2, ![50000, 64]⟩ .f32) : FVec Ideal ⟨2, ![50000, 64]⟩ .f32 :=
  fun i => logSoftmaxAt z ⟨(i 0).val, (i 0).isLt⟩ ⟨(i 1).val, (i 1).isLt⟩

theorem logSoftmax_ix2 (z : FVec Ideal ⟨2, ![50000, 64]⟩ .f32) (r : Fin 50000) (q : Fin 64) :
    logSoftmax z (ix2 r q) = logSoftmaxAt z r q := rfl

end Cert.Gcn

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Layer1.lean ====
/-
  The first affine layer, as the kernel computes it block by block.

  The pipeline walks ten blocks of 5000 rows. At block `t` the body multiplies rows `5000·t … 5000·t + 4999` of the
  node features with the whole weight matrix (contracting the 256 input channels of both), adds the bias row, and the
  result is written back to the same rows of the output. So the output array after the region is, at row `r` and
  channel `q`, `Σ_j x[r, j] · w[q, j] + b[q]`: the changes of float format inside the body are the identity on the
  extended reals, and a product into the zero accumulator is the plain sum.
-/
import proofs.«163223_j61306363183616_1_alg».proof.Proof.Gen.KernelIdeal.Frame
import proofs.«163223_j61306363183616_1_alg».proof.Proof.Spec
import proofs.«163223_j61306363183616_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product's operand indices -/

theorem lhs_0 (i : S5000x128.Idx) (k : dot_S5000x256_S128x256_S5000x128_1_1_0_0_n_n.contr.Idx) :
    (dot_S5000x256_S128x256_S5000x128_1_1_0_0_n_n.lhsIdx i k 0).val = (i 0).val := by
  unfold DotDims.lhsIdx
  rw [dif_neg (show ¬(0 : Fin S5000x256.rank) ∈ dot_S5000x256_S128x256_S5000x128_1_1_0_0_n_n.lhsBatch by decide), dif_pos (show (0 : Fin S5000x256.rank) ∈ dot_S5000x256_S128x256_S5000x128_1_1_0_0_n_n.lhsNonContracting by decide)]
  rfl
theorem lhs_1 (i : S5000x128.Idx) (k : dot_S5000x256_S128x256_S5000x128_1_1_0_0_n_n.contr.Idx) :
    (dot_S5000x256_S128x256_S5000x128_1_1_0_0_n_n.lhsIdx i k 1).val = (k ⟨0, by decide⟩).val :=
  dot_S5000x256_S128x256_S5000x128_1_1_0_0_n_n.lhsIdx_val_of_single rfl i k
theorem rhs_0 (i : S5000x128.Idx) (k : dot_S5000x256_S128x256_S5000x128_1_1_0_0_n_n.contr.Idx) :
    (dot_S5000x256_S128x256_S5000x128_1_1_0_0_n_n.rhsIdx i k 0).val = (i 1).val := by
  unfold DotDims.rhsIdx
  rw [dif_neg (show ¬(0 : Fin S128x256.rank) ∈ dot_S5000x256_S128x256_S5000x128_1_1_0_0_n_n.rhsBatch by decide), dif_pos (show (0 : Fin S128x256.rank) ∈ dot_S5000x256_S128x256_S5000x128_1_1_0_0_n_n.rhsNonContracting by decide)]
  rfl
theorem rhs_1 (i : S5000x128.Idx) (k : dot_S5000x256_S128x256_S5000x128_1_1_0_0_n_n.contr.Idx) :
    (dot_S5000x256_S128x256_S5000x128_1_1_0_0_n_n.rhsIdx i k 1).val = (k ⟨0, by decide⟩).val :=
  dot_S5000x256_S128x256_S5000x128_1_1_0_0_n_n.rhsIdx_val_of_single rfl i k

/-- The product of a block of rows with the weights, into the zero accumulator, at (p, q): the sum over the 256
    input channels of the block's row p against the weights' row q. -/
theorem product_apply (a : FVec Ideal S5000x256 .bf16) (w : FVec Ideal S128x256 .bf16) (p : Fin 5000) (q : Fin 128) :
    FloatOps.matmul dot_S5000x256_S128x256_S5000x128_1_1_0_0_n_n none a w (constant S5000x128 .f32 0x00000000#32) (ix2 p q)
      = ∑ j : Fin 256, a (ix2 p j) * w (ix2 q j) := by
  rw [Ideal.matmul_constant_zero_apply, ← Equiv.sum_comp (contrEquiv1 dot_S5000x256_S128x256_S5000x128_1_1_0_0_n_n 256 rfl rfl).symm]
  refine Finset.sum_congr rfl fun j _ => ?_
  have hj := contrEquiv1_symm_val dot_S5000x256_S128x256_S5000x128_1_1_0_0_n_n 256 rfl rfl j
  have el : dot_S5000x256_S128x256_S5000x128_1_1_0_0_n_n.lhsIdx (ix2 p q) ((contrEquiv1 dot_S5000x256_S128x256_S5000x128_1_1_0_0_n_n 256 rfl rfl).symm j) = ix2 p j := funext fun ax => Fin.ext (by
    match ax with
    | ⟨0, _⟩ => exact lhs_0 _ _
    | ⟨1, _⟩ => exact (lhs_1 _ _).trans hj)
  have er : dot_S5000x256_S128x256_S5000x128_1_1_0_0_n_n.rhsIdx (ix2 p q) ((contrEquiv1 dot_S5000x256_S128x256_S5000x128_1_1_0_0_n_n 256 rfl rfl).symm j) = ix2 q j := funext fun ax => Fin.ext (by
    match ax with
    | ⟨0, _⟩ => exact rhs_0 _ _
    | ⟨1, _⟩ => exact (rhs_1 _ _).trans hj)
  rw [el, er]

/-- What the body stores, at (p, q) of its block: the row's product with the weights plus the bias row at q. -/
theorem stored_apply (x0 : Vec Ideal S5000x256 .f32) (x1 : Vec Ideal S128x256 .f32) (x2 : Vec Ideal S1x128 .f32)
    (p : Fin 5000) (q : Fin 128) :
    k0_pay1 (F := Ideal) x0 x1 x2 (ix2 p q) = (∑ j : Fin 256, x0 (ix2 p j) * x1 (ix2 q j)) + x2 (ix2 (0 : Fin 1) q) := by
  unfold k0_pay1
  refine congrArg₂ (· + ·) ?_ ?_
  · exact product_apply _ _ p q
  · exact Cert.LibKeepdims.row_broadcast_apply x2 _ _ p q

/-! ## The windows' blocks -/

theorem hz : (![0, 0] : Fin 2 → Nat) = fun _ => 0 := funext fun a => by fin_cases a <;> rfl

/-- The printed index maps over the grid: the feature and output windows move down one block a point, the weights
    and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- Row p of block t is row 5000·t + p of the array. -/
def rowOf (t : Fin cfg0.N) (p : Fin 5000) : Fin 50000 :=
  ⟨t.val * 5000 + p.val, by have := point_lt t; have := p.isLt; omega⟩

variable (V : (c : Dev nD) → (b : Ref sig .tc) → Buf (Elt Ideal) ((c : Thread nD τ).loc b))

theorem read_features (c : Dev nD) (t : Fin cfg0.N) (p : Fin 5000) (j : Fin 256) :
    iblk0 (F := Ideal) V c 0 t (ix2 p j) = V c main_arg0 (ix2 (rowOf t p) j) := by
  obtain ⟨e0, e1, -⟩ := idx_facts t
  show V c main_arg0 (((cfg0.win 0).blk t).view.emb (ix2 p j)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * j.val = j.val; omega

theorem read_weights (c : Dev nD) (t : Fin cfg0.N) (q : Fin 128) (j : Fin 256) :
    iblk0 (F := Ideal) V c 1 t (ix2 q j) = V c main_arg2 (ix2 q j) := by
  obtain ⟨-, -, e2, e3, -⟩ := idx_facts t
  show V c main_arg2 (((cfg0.win 1).blk t).view.emb (ix2 q j)) = _
  refine congrArg (V c main_arg2) (funext fun a => Fin.ext ?_)
  match a with
  | ⟨0, _⟩ => show win0_1.index t (0 : Fin 2) * 128 + 1 * q.val = q.val; omega
  | ⟨1, _⟩ => show win0_1.index t (1 : Fin 2) * 256 + 1 * j.val = j.val; omega

theorem read_bias (c : Dev nD) (t : Fin cfg0.N) (q : Fin 128) :
    iblk0 (F := Ideal) V c 2 t (ix2 (0 : Fin 1) q) = V c main_v33 (ix2 (0 : Fin 1) q) := by
  obtain ⟨-, -, -, -, e4, e5, -⟩ := idx_facts t
  show V c main_v33 (((cfg0.win 2).blk t).view.emb (ix2 (0 : Fin 1) q)) = _
  refine congrArg (V c main_v33) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem emb_out (t : Fin cfg0.N) (p : Fin 5000) (q : Fin 128) :
    ((cfg0.win 3).blk t).view.emb (ix2 p q) = ix2 (rowOf t p) q := by
  obtain ⟨-, -, -, -, -, -, e6, e7⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-! ## What a point writes back, and the array after the region -/

/-- What point `t` writes back is block `t` of the affine layer of the arrays as the region finds them. -/
theorem flushed_eq (c : Dev nD) (b : FVec Ideal ⟨1, ![128]⟩ .f32)
    (hb : ∀ q : Fin 128, V c main_v33 (ix2 (0 : Fin 1) q) = b (ix1 q)) (t : Fin cfg0.N) :
    (dat0 (F := Ideal) V c).flushed 3 t
      = ((cfg0.win 3).blk t).view.read (Elt Ideal) (Cert.Gcn.affine1 (V c main_arg0) (V c main_arg2) b) := by
  show (cfg0.win 3).cut (grid0.coords t) ((dat0 V c).after 3 t) = _
  rw [after0_3]
  unfold out0_3
  rw [View.canon_unit_zero hz]
  simp only [View.ld_unit_zero (S := S5000x256) hz, View.ld_unit_zero (S := S128x256) hz, View.ld_unit_zero (S := S1x128) hz]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (ix2 p q)
    = Cert.Gcn.affine1 (V c main_arg0) (V c main_arg2) b (((cfg0.win 3).blk t).view.emb (ix2 p q))
  rw [emb_out t p q, Cert.Gcn.affine1_ix2]
  refine (stored_apply _ _ _ p q).trans ?_
  unfold Cert.Gcn.affine1At
  rw [read_bias V c t q, hb q]
  refine congrArg (· + b (ix1 q)) (Finset.sum_congr rfl fun j _ => ?_)
  rw [read_features V c t p j, read_weights V c t q j]

theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v35).slice (win0_3.rect t)).set ↔ _
  rw [View.set_slice_whole, Rect.mem_set_unit]
  exact Iff.rfl

/-- Every row of the output lies in the block of the point `row / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is the affine layer of the features, the weights and the bias the region
    finds, whatever else the buffers hold. -/
theorem array_eq (c : Dev nD) (b : FVec Ideal ⟨1, ![128]⟩ .f32)
    (hb : ∀ q : Fin 128, V c main_v33 (ix2 (0 : Fin 1) q) = b (ix1 q)) :
    (dat0 (F := Ideal) V c).arrAt 3 cfg0.N = Cert.Gcn.affine1 (V c main_arg0) (V c main_arg2) b :=
  (dat0 (F := Ideal) V c).arrAt_eq_of_cover 3 _ (fun t _ => flushed_eq V c b hb t) cover

end Cert.KernelIdeal.Layer1

end
-- ==== Proof.Layer2.lean ====
/-
  The second affine layer, as the kernel computes it block by block.

  Ten blocks of 5000 rows again. At block `t` the body clamps rows `5000·t … 5000·t + 4999` of the aggregated hidden
  features at zero from below, multiplies them with the whole second weight matrix (contracting the 128 hidden
  channels of both), adds the bias row and writes the result back to the same rows. So the output array after the
  region is, at row `r` and channel `q`, `Σ_j max(h[r, j], 0) · w[q, j] + b[q]`.
-/
import proofs.«163223_j61306363183616_1_alg».proof.Proof.Gen.KernelIdeal.Frame
import proofs.«163223_j61306363183616_1_alg».proof.Proof.Spec
import proofs.«163223_j61306363183616_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product's operand indices -/

theorem lhs_0 (i : S5000x64.Idx) (k : dot_S5000x128_S64x128_S5000x64_1_1_0_0_n_n.contr.Idx) :
    (dot_S5000x128_S64x128_S5000x64_1_1_0_0_n_n.lhsIdx i k 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem lhs_1 (i : S5000x64.Idx) (k : dot_S5000x128_S64x128_S5000x64_1_1_0_0_n_n.contr.Idx) :
    (dot_S5000x128_S64x128_S5000x64_1_1_0_0_n_n.lhsIdx i k 1).val = (k ⟨0, by decide⟩).val :=
  dot_S5000x128_S64x128_S5000x64_1_1_0_0_n_n.lhsIdx_val_of_single rfl i k
theorem rhs_0 (i : S5000x64.Idx) (k : dot_S5000x128_S64x128_S5000x64_1_1_0_0_n_n.contr.Idx) :
    (dot_S5000x128_S64x128_S5000x64_1_1_0_0_n_n.rhsIdx i k 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem rhs_1 (i : S5000x64.Idx) (k : dot_S5000x128_S64x128_S5000x64_1_1_0_0_n_n.contr.Idx) :
    (dot_S5000x128_S64x128_S5000x64_1_1_0_0_n_n.rhsIdx i k 1).val = (k ⟨0, by decide⟩).val :=
  dot_S5000x128_S64x128_S5000x64_1_1_0_0_n_n.rhsIdx_val_of_single rfl i k

/-- The product of a block of rows with the weights, into the zero accumulator, at (p, q): the sum over the 128
    input channels of the block's row p against the weights' row q. -/
theorem product_apply (a : FVec Ideal S5000x128 .bf16) (w : FVec Ideal S64x128 .bf16) (p : Fin 5000) (q : Fin 64) :
    FloatOps.matmul dot_S5000x128_S64x128_S5000x64_1_1_0_0_n_n none a w (constant S5000x64 .f32 0x00000000#32) (ix2 p q)
      = ∑ j : Fin 128, a (ix2 p j) * w (ix2 q j) := by
  rw [Ideal.matmul_constant_zero_apply, ← Equiv.sum_comp (contrEquiv1 dot_S5000x128_S64x128_S5000x64_1_1_0_0_n_n 128 rfl rfl).symm]
  refine Finset.sum_congr rfl fun j _ => ?_
  have hj := contrEquiv1_symm_val dot_S5000x128_S64x128_S5000x64_1_1_0_0_n_n 128 rfl rfl j
  have el : dot_S5000x128_S64x128_S5000x64_1_1_0_0_n_n.lhsIdx (ix2 p q) ((contrEquiv1 dot_S5000x128_S64x128_S5000x64_1_1_0_0_n_n 128 rfl rfl).symm j) = ix2 p j := funext fun ax => Fin.ext (by
    match ax with
    | ⟨0, _⟩ => exact lhs_0 _ _
    | ⟨1, _⟩ => exact (lhs_1 _ _).trans hj)
  have er : dot_S5000x128_S64x128_S5000x64_1_1_0_0_n_n.rhsIdx (ix2 p q) ((contrEquiv1 dot_S5000x128_S64x128_S5000x64_1_1_0_0_n_n 128 rfl rfl).symm j) = ix2 q j := funext fun ax => Fin.ext (by
    match ax with
    | ⟨0, _⟩ => exact rhs_0 _ _
    | ⟨1, _⟩ => exact (rhs_1 _ _).trans hj)
  rw [el, er]

/-- What the body stores, at (p, q) of its block: the row, clamped at zero from below, against the weights' row q,
    plus the bias row at q. -/
theorem stored_apply (x0 : Vec Ideal S5000x128 .f32) (x1 : Vec Ideal S64x128 .f32) (x2 : Vec Ideal S1x64 .f32)
    (p : Fin 5000) (q : Fin 64) :
    k1_pay1 (F := Ideal) x0 x1 x2 (ix2 p q) = (∑ j : Fin 128, max (x0 (ix2 p j)) 0 * x1 (ix2 q j)) + x2 (ix2 (0 : Fin 1) q) := by
  unfold k1_pay1
  refine congrArg₂ (· + ·) ?_ ?_
  · refine (product_apply _ _ p q).trans (Finset.sum_congr rfl fun j _ => ?_)
    show max (shapeCast S5000x128 x0 shapeCasts_S5000x128_S5000x128 (ix2 p j)) (Ideal.ofBits .f32 0x00000000#32) * x1 (ix2 q j) = _
    rw [Ideal.ofBits_zero_f32, shapeCast_self]
  · exact Cert.LibKeepdims.row_broadcast_apply x2 _ _ p q

/-! ## The windows' blocks -/

theorem hz : (![0, 0] : Fin 2 → Nat) = fun _ => 0 := funext fun a => by fin_cases a <;> rfl

/-- The printed index maps over the grid: the feature and output windows move down one block a point, the weights
    and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 10 := lt_of_lt_of_eq t.isLt N_1

/-- Row p of block t is row 5000·t + p of the array. -/
def rowOf (t : Fin cfg1.N) (p : Fin 5000) : Fin 50000 :=
  ⟨t.val * 5000 + p.val, by have := point_lt t; have := p.isLt; omega⟩

variable (V : (c : Dev nD) → (b : Ref sig .tc) → Buf (Elt Ideal) ((c : Thread nD τ).loc b))

theorem read_features (c : Dev nD) (t : Fin cfg1.N) (p : Fin 5000) (j : Fin 128) :
    iblk1 (F := Ideal) V c 0 t (ix2 p j) = V c main_v48 (ix2 (rowOf t p) j) := by
  obtain ⟨e0, e1, -⟩ := idx_facts t
  show V c main_v48 (((cfg1.win 0).blk t).view.emb (ix2 p j)) = _
  refine congrArg (V c main_v48) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * j.val = j.val; omega

theorem read_weights (c : Dev nD) (t : Fin cfg1.N) (q : Fin 64) (j : Fin 128) :
    iblk1 (F := Ideal) V c 1 t (ix2 q j) = V c main_arg4 (ix2 q j) := by
  obtain ⟨-, -, e2, e3, -⟩ := idx_facts t
  show V c main_arg4 (((cfg1.win 1).blk t).view.emb (ix2 q j)) = _
  refine congrArg (V c main_arg4) (funext fun a => Fin.ext ?_)
  match a with
  | ⟨0, _⟩ => show win1_1.index t (0 : Fin 2) * 64 + 1 * q.val = q.val; omega
  | ⟨1, _⟩ => show win1_1.index t (1 : Fin 2) * 128 + 1 * j.val = j.val; omega

theorem read_bias (c : Dev nD) (t : Fin cfg1.N) (q : Fin 64) :
    iblk1 (F := Ideal) V c 2 t (ix2 (0 : Fin 1) q) = V c main_v34 (ix2 (0 : Fin 1) q) := by
  obtain ⟨-, -, -, -, e4, e5, -⟩ := idx_facts t
  show V c main_v34 (((cfg1.win 2).blk t).view.emb (ix2 (0 : Fin 1) q)) = _
  refine congrArg (V c main_v34) (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

theorem emb_out (t : Fin cfg1.N) (p : Fin 5000) (q : Fin 64) :
    ((cfg1.win 3).blk t).view.emb (ix2 p q) = ix2 (rowOf t p) q := by
  obtain ⟨-, -, -, -, -, -, e6, e7⟩ := idx_facts t
  refine funext fun a => Fin.ext ?_
  match a with
  | ⟨0, _⟩ => show win1_3.index t (0 : Fin 2) * 5000 + 1 * p.val = t.val * 5000 + p.val; omega
  | ⟨1, _⟩ => show win1_3.index t (1 : Fin 2) * 64 + 1 * q.val = q.val; omega

/-! ## What a point writes back, and the array after the region -/

/-- What point `t` writes back is block `t` of the affine layer of the arrays as the region finds them. -/
theorem flushed_eq (c : Dev nD) (b : FVec Ideal ⟨1, ![64]⟩ .f32)
    (hb : ∀ q : Fin 64, V c main_v34 (ix2 (0 : Fin 1) q) = b (ix1 q)) (t : Fin cfg1.N) :
    (dat1 (F := Ideal) V c).flushed 3 t
      = ((cfg1.win 3).blk t).view.read (Elt Ideal) (Cert.Gcn.affine2 (V c main_v48) (V c main_arg4) b) := by
  show (cfg1.win 3).cut (grid1.coords t) ((dat1 V c).after 3 t) = _
  rw [after1_3]
  unfold out1_3
  rw [View.canon_unit_zero hz]
  simp only [View.ld_unit_zero (S := S5000x128) hz, View.ld_unit_zero (S := S64x128) hz, View.ld_unit_zero (S := S1x64) hz]
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (ix2 p q)
    = Cert.Gcn.affine2 (V c main_v48) (V c main_arg4) b (((cfg1.win 3).blk t).view.emb (ix2 p q))
  rw [emb_out t p q, Cert.Gcn.affine2_ix2]
  refine (stored_apply _ _ _ p q).trans ?_
  unfold Cert.Gcn.affine2At
  rw [read_bias V c t q, hb q]
  refine congrArg (· + b (ix1 q)) (Finset.sum_congr rfl fun j _ => ?_)
  rw [read_features V c t p j, read_weights V c t q j]

theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v49).slice (win1_3.rect t)).set ↔ _
  rw [View.set_slice_whole, Rect.mem_set_unit]
  exact Iff.rfl

/-- Every row of the output lies in the block of the point `row / 5000`. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region is the affine layer of the features, the weights and the bias the region
    finds, whatever else the buffers hold. -/
theorem array_eq (c : Dev nD) (b : FVec Ideal ⟨1, ![64]⟩ .f32)
    (hb : ∀ q : Fin 64, V c main_v34 (ix2 (0 : Fin 1) q) = b (ix1 q)) :
    (dat1 (F := Ideal) V c).arrAt 3 cfg1.N = Cert.Gcn.affine2 (V c main_v48) (V c main_arg4) b :=
  (dat1 (F := Ideal) V c).arrAt_eq_of_cover 3 _ (fun t _ => flushed_eq V c b hb t) cover

end Cert.KernelIdeal.Layer2

end
-- ==== Proof.RowLogSoftmax.lean ====
/-
  The row-wise logarithm of the softmax, as the kernel computes it block by block.

  Ten blocks of 5000 rows. At block `t` the body takes, for each of its rows, the largest entry `M` (folded from -∞
  along the 64 lanes), subtracts it from the row, and subtracts from that the logarithm of the sum along the lanes of
  the exponentials of the shifted row; the block is written back to the same rows. Each row is treated by itself,
  so the output array after the region is, at row `r` and column `q`,
  `(z[r, q] - M r) - log (Σ_j exp (z[r, j] - M r))` of the array `z` the region finds.
-/
import proofs.«163223_j61306363183616_1_alg».proof.Proof.Gen.KernelIdeal.Frame
import proofs.«163223_j61306363183616_1_alg».proof.Proof.Spec
import proofs.«163223_j61306363183616_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.RowLogSoftmax

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's value at an index of its block -/

/-- The largest entry of row p of a block, folded from -∞. -/
def blockMax (x : FVec Ideal S5000x64 .f32) (p : Fin 5000) : EReal :=
  (Finset.univ : Finset (Fin 64)).fold max (Ideal.ofBits .f32 0xFF800000#32) (fun j => x (ix2 p j))

/-- The maximum along the lanes from -∞, read at row p. -/
theorem lane_max_apply (src : FVec Ideal S5000x64 .f32) (h : S5000x64.Reduces [1] S5000) (hφ : FKind.Formats .f32)
    (hacc : (0xFF800000#32 : BitVec (FTy.bits .f32)) = FKind.maximumf.neutral .f32 hφ) (p : Fin 5000) :
    multiReduction (F := Ideal) .maximumf [1] S5000 src 0xFF800000#32 h hφ hacc (ix1 p) = blockMax src p :=
  (Ideal.multiReduction_maximumf_single src _ h hφ hacc (ix1 p)).trans
    (congrArg (fun f : Fin 64 → EReal => (Finset.univ : Finset (Fin 64)).fold max (Ideal.ofBits .f32 0xFF800000#32) f)
      (funext fun k => congrArg src
        (funext fun ax => Fin.ext (by match ax with | ⟨0, _⟩ => rfl | ⟨1, _⟩ => rfl))))

/-- The block with each row's maximum subtracted. -/
def shifted (x : FVec Ideal S5000x64 .f32) : FVec Ideal S5000x64 .f32 :=
  subf x (broadcastTo S5000x64 (shapeCast S5000x1
    (multiReduction .maximumf [1] S5000 x 0xFF800000#32 reduces_S5000x64_S5000 (.inl rfl) rfl)
    shapeCasts_S5000_S5000x1) broadcasts_S5000x1_S5000x64)

theorem shifted_apply (x : FVec Ideal S5000x64 .f32) (p : Fin 5000) (j : Fin 64) :
    shifted x (ix2 p j) = x (ix2 p j) - blockMax x p := by
  unfold shifted
  refine congrArg (x (ix2 p j) - ·) ?_
  exact (Cert.LibKeepdims.column_broadcast_apply _ _ _ p j).trans (lane_max_apply x _ _ _ p)

/-- The logarithm of each row's sum of exponentials of the shifted block, spread along the lanes. -/
def logSumExp (x : FVec Ideal S5000x64 .f32) : FVec Ideal S5000x64 .f32 :=
  broadcastTo S5000x64 (shapeCast S5000x1
    (fun i : S5000.Idx => FloatOps.log (multiReduction .add [1] S5000 (exp (shifted x)) 0x00000000#32 reduces_S5000x64_S5000 (.inl rfl) rfl i))
    shapeCasts_S5000_S5000x1) broadcasts_S5000x1_S5000x64

theorem logSumExp_apply (x : FVec Ideal S5000x64 .f32) (p : Fin 5000) (q : Fin 64) :
    logSumExp x (ix2 p q) = Ideal.log (∑ j : Fin 64, Ideal.exp (x (ix2 p j) - blockMax x p)) := by
  unfold logSumExp
  refine (Cert.LibKeepdims.column_broadcast_apply _ _ _ p q).trans ?_
  show Ideal.log (multiReduction (F := Ideal) .add [1] S5000 (exp (shifted x)) 0x00000000#32 reduces_S5000x64_S5000 (.inl rfl) rfl (ix1 p)) = _
  refine congrArg Ideal.log ((Cert.LibKeepdims.lane_sum_apply _ _ _ _ p).trans (Finset.sum_congr rfl fun j _ => ?_))
  show Ideal.exp (shifted x (ix2 p j)) = _
  rw [shifted_apply]

/-- What the body stores is the shifted block minus the spread logarithms (the cast of the loaded block to its own
    shape is the identity). -/
theorem stored_eq (x0 : Vec Ideal S5000x64 .f32) :
    k2_pay1 (F := Ideal) x0 = subf (shifted x0) (logSumExp x0) := by
  unfold k2_pay1 shifted logSumExp
  simp only [shapeCast_self]
  rfl

theorem stored_apply (x0 : Vec Ideal S5000x64 .f32) (p : Fin 5000) (q : Fin 64) :
    k2_pay1 (F := Ideal) x0 (ix2 p q)
      = (x0 (ix2 p q) - blockMax x0 p) - Ideal.log (∑ j : Fin 64, Ideal.exp (x0 (ix2 p j) - blockMax x0 p)) := by
  rw [stored_eq]
  show shifted x0 (ix2 p q) - logSumExp x0 (ix2 p q) = _
  rw [shifted_apply, logSumExp_apply]

/-! ## The windows' blocks -/

theorem hz : (![0, 0] : Fin 2 → Nat) = fun _ => 0 := funext fun a => by fin_cases a <;> rfl

/-- The printed index maps over the grid: both windows move down one block a point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem point_lt (t : Fin cfg2.N) : t.val < 10 := lt_of_lt_of_eq t.isLt N_2

/-- Row p of block t is row 5000·t + p of the array. -/
def rowOf (t : Fin cfg2.N) (p : Fin 5000) : Fin 50000 :=
  ⟨t.val * 5000 + p.val, by have := point_lt t; have := p.isLt; omega⟩

/-- A block whose rows are given rows of an array: the block's value at (p, q) is the array's logarithm of the softmax
    at that row (the row's maximum and its sum of exponentials see the row only). -/
theorem block_value (Z : FVec Ideal ⟨2, ![50000, 64]⟩ .f32) (x : FVec Ideal S5000x64 .f32) (r : Fin 5000 → Fin 50000)
    (hx : ∀ p j, x (ix2 p j) = Z (ix2 (r p) j)) (p : Fin 5000) (q : Fin 64) :
    (x (ix2 p q) - blockMax x p) - Ideal.log (∑ j : Fin 64, Ideal.exp (x (ix2 p j) - blockMax x p))
      = Cert.Gcn.logSoftmaxAt Z (r p) q := by
  have hM : blockMax x p = Cert.Gcn.rowMax Z (r p) := by
    unfold blockMax Cert.Gcn.rowMax
    exact congrArg (fun f : Fin 64 → EReal => (Finset.univ : Finset (Fin 64)).fold max (Ideal.ofBits .f32 0xFF800000#32) f)
      (funext fun j => hx p j)
  unfold Cert.Gcn.logSoftmaxAt
  rw [hM, hx p q]
  refine congrArg (fun s : EReal => (Z (ix2 (r p) q) - Cert.Gcn.rowMax Z (r p)) - Ideal.log s)
    (Finset.sum_congr rfl fun j _ => ?_)
  rw [hx p j]

variable (V : (c : Dev nD) → (b : Ref sig .tc) → Buf (Elt Ideal) ((c : Thread nD τ).loc b))

theorem read_in (c : Dev nD) (t : Fin cfg2.N) (p : Fin 5000) (j : Fin 64) :
    iblk2 (F := Ideal) V c 0 t (ix2 p j) = V c main_v62 (ix2 (rowOf t p) j) := by
  obtain ⟨e0, e1, -⟩ := idx_facts t
  show V c main_v62 (((cfg2.win 0).blk t).view.emb (ix2 p j)) = _
  refine congrArg (V c main_v62) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * j.val = j.val; omega

theorem emb_out (t : Fin cfg2.N) (p : Fin 5000) (q : Fin 64) :
    ((cfg2.win 1).blk t).view.emb (ix2 p q) = ix2 (rowOf t p) q := by
  obtain ⟨-, -, e2, e3⟩ := idx_facts t
  refine funext fun a => Fin.ext ?_
  match a with
  | ⟨0, _⟩ => show win2_1.index t (0 : Fin 2) * 5000 + 1 * p.val = t.val * 5000 + p.val; omega
  | ⟨1, _⟩ => show win2_1.index t (1 : Fin 2) * 64 + 1 * q.val = q.val; omega

/-! ## What a point writes back, and the array after the region -/

/-- What point `t` writes back is block `t` of the row-wise logarithm of the softmax of the array the region finds. -/
theorem flushed_eq (c : Dev nD) (t : Fin cfg2.N) :
    (dat2 (F := Ideal) V c).flushed 1 t
      = ((cfg2.win 1).blk t).view.read (Elt Ideal) (Cert.Gcn.logSoftmax (V c main_v62)) := by
  show (cfg2.win 1).cut (grid2.coords t) ((dat2 V c).after 1 t) = _
  rw [after2_1]
  unfold out2_1
  rw [View.canon_unit_zero hz]
  simp only [View.ld_unit_zero (S := S5000x64) hz]
  funext y
  obtain ⟨p, q, rfl⟩ : ∃ (p : Fin 5000) (q : Fin 64), y = ix2 p q := ⟨y 0, y 1, eq_ix2 y⟩
  show k2_pay1 (F := Ideal) (iblk2 V c 0 t) (ix2 p q)
    = Cert.Gcn.logSoftmax (V c main_v62) (((cfg2.win 1).blk t).view.emb (ix2 p q))
  rw [emb_out t p q, Cert.Gcn.logSoftmax_ix2]
  refine (stored_apply _ p q).trans ?_
  exact block_value (V c main_v62) (iblk2 (F := Ideal) V c 0 t) (rowOf t) (fun p j => read_in V c t p j) p q

theorem mem_blk (t : Fin cfg2.N) (i : S50000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v63).slice (win2_1.rect t)).set ↔ _
  rw [View.set_slice_whole, Rect.mem_set_unit]
  exact Iff.rfl

/-- Every row of the output lies in the block of the point `row / 5000`. -/
theorem cover (i : S50000x64.Idx) :
    ∃ t : Fin cfg2.N, (cfg2.win 1).flush t = true ∧ i ∈ ((cfg2.win 1).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, e2, e3⟩ := idx_facts t
  refine ⟨t, flush2_1 t, ?_⟩
  rw [mem_blk]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 64 ≤ (i 1).val ∧ (i 1).val < win2_1.index t (1 : Fin 2) * 64 + 64; omega

/-- The output array after the region is the row-wise logarithm of the softmax of the array the region finds. -/
theorem array_eq (c : Dev nD) :
    (dat2 (F := Ideal) V c).arrAt 1 cfg2.N = Cert.Gcn.logSoftmax (V c main_v62) :=
  (dat2 (F := Ideal) V c).arrAt_eq_of_cover 1 _ (fun t _ => flushed_eq V c t) cover

end Cert.KernelIdeal.RowLogSoftmax

end
-- ==== Proof.HostValue.lean ====
/-
  The kernel program's value: what its result array holds when @main returns.

  Between the three kernel regions @main runs plain array operations. Before the first region it builds, from the
  edge list, the source and target endpoint of every edge followed by one self loop per node, and the symmetric
  degree weight of every edge (the in-degree counted by a scatter-add of ones, raised to the power -1/2, gathered at
  both endpoints and multiplied); it also lays the two bias vectors out as rows. After each affine layer it
  aggregates: the layer's rows are gathered at the source endpoints (a negative index wrapped by the node count),
  scaled by the edge weights, and scatter-added at the target endpoints into zeros. The regions leave every buffer
  but their own output as they found it, so each of these arrays is still there when a later stretch reads it.
  Following the buffers through the stretches and the regions, the result array is
  `logSoftmax (aggregate (affine2 (aggregate (affine1 x w₁ b₁)) w₂ b₂))`.
-/
import proofs.«163223_j61306363183616_1_alg».proof.Proof.Gen.KernelIdeal.Frame
import proofs.«163223_j61306363183616_1_alg».proof.Proof.RefRead
import proofs.«163223_j61306363183616_1_alg».proof.Proof.Spec
import proofs.«163223_j61306363183616_1_alg».proof.Proof.Layer1
import proofs.«163223_j61306363183616_1_alg».proof.Proof.Layer2
import proofs.«163223_j61306363183616_1_alg».proof.Proof.RowLogSoftmax
import Idealize.ShloMosaic.Lib.StableHlo.Run
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- After the one-pass evaluation of a stretch, the operands inside a concatenation's list are still unevaluated
    (a rewrite under the list's dependent pairs is not a congruence): this finishes them one rewrite at a time. -/
macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The aggregation step -/

/-- Rows of `h` gathered at the source endpoints `row` (a negative endpoint wrapped by the node count), scaled by
    the edge weights `nrm`, scatter-added at the target endpoints `col` into zeros: 128 channels. -/
def aggregate128 (row col : (⟨S850000, .i32⟩ : BufTy).Contents (Elt F)) (nrm : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 col)
    (mulf (broadcastInDim S850000x128 ![0, 1] bcast_S850000x1_S850000x128_0_1 (broadcastInDim S850000x1 ![0] bcast_S850000_S850000x1_0 nrm))
      (Host.gather gather_S50000x128_S850000x1_S850000x128_1_0_n_n_0_1_1128 h
        (broadcastInDim S850000x1 ![0] bcast_S850000_S850000x1_0
          (select (cmpi .slt row (broadcastInDim S850000 ![] bcast_S_S850000 (constantI S_ 32 0#32)))
            (addi row (broadcastInDim S850000 ![] bcast_S_S850000 (constantI S_ 32 50000#32))) row))))

/-- The same over 64 channels. -/
def aggregate64 (row col : (⟨S850000, .i32⟩ : BufTy).Contents (Elt F)) (nrm : (⟨S850000, .f32⟩ : BufTy).Contents (Elt F))
    (h : (⟨S50000x64, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant (F := F) S_ .f32 0x00000000#32))
    (broadcastInDim S850000x1 ![0] bcast_S850000_S850000x1_0 col)
    (mulf (broadcastInDim S850000x64 ![0, 1] bcast_S850000x1_S850000x64_0_1 (broadcastInDim S850000x1 ![0] bcast_S850000_S850000x1_0 nrm))
      (Host.gather gather_S50000x64_S850000x1_S850000x64_1_0_n_n_0_1_164 h
        (broadcastInDim S850000x1 ![0] bcast_S850000_S850000x1_0
          (select (cmpi .slt row (broadcastInDim S850000 ![] bcast_S_S850000 (constantI S_ 32 0#32)))
            (addi row (broadcastInDim S850000 ![] bcast_S_S850000 (constantI S_ 32 50000#32))) row))))

variable (m : (ℓ : Loc nD τ sig) → Buf (Elt F) ℓ) (ρ : Dev nD → PrngReg)

/-! ## Before the first region: the edge arrays and the bias rows -/

/-- The source endpoints, self loops appended: the same operations of the edge list as the reference's. -/
theorem entry_sources (c : Dev nD) :
    W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results; rfl

/-- The target endpoints, self loops appended. -/
theorem entry_targets (c : Dev nD) :
    W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  after_results; rfl

set_option maxHeartbeats 4000000 in
/-- The edge weights. -/
theorem entry_weights (c : Dev nD) :
    W1 m ρ c (Proc.devRef .tc main_v32) = Cert.ReferenceIdeal.ReadP.val_main_v32 (F := F) (m ((c : Thread nD τ).loc main_arg1)) := by
  show StableHlo.after hostOps0 (W0 m ρ c) (Proc.devRef .tc main_v32) = _
  after_results_simp
  finish_results
  rfl

/-- The first bias as a row. -/
theorem entry_bias1 (c : Dev nD) :
    W1 m ρ c (Proc.devRef .tc main_v33) = shapeCast S1x128 (m ((c : Thread nD τ).loc main_arg3)) shapeCasts_S128_S1x128 := by
  show StableHlo.after hostOps0 (W0 m ρ c) (Proc.devRef .tc main_v33) = _
  after_results; rfl

/-- The second bias as a row. -/
theorem entry_bias2 (c : Dev nD) :
    W1 m ρ c (Proc.devRef .tc main_v34) = shapeCast S1x64 (m ((c : Thread nD τ).loc main_arg5)) shapeCasts_S64_S1x64 := by
  show StableHlo.after hostOps0 (W0 m ρ c) (Proc.devRef .tc main_v34) = _
  after_results; rfl

theorem entry_features (c : Dev nD) : W1 m ρ c (Proc.devRef .tc main_arg0) = m ((c : Thread nD τ).loc main_arg0) := by
  show StableHlo.after hostOps0 (W0 m ρ c) (Proc.devRef .tc main_arg0) = _
  after_results_simp <;> rfl

theorem entry_weight1 (c : Dev nD) : W1 m ρ c (Proc.devRef .tc main_arg2) = m ((c : Thread nD τ).loc main_arg2) := by
  show StableHlo.after hostOps0 (W0 m ρ c) (Proc.devRef .tc main_arg2) = _
  after_results_simp <;> rfl

theorem entry_weight2 (c : Dev nD) : W1 m ρ c (Proc.devRef .tc main_arg4) = m ((c : Thread nD τ).loc main_arg4) := by
  show StableHlo.after hostOps0 (W0 m ρ c) (Proc.devRef .tc main_arg4) = _
  after_results_simp <;> rfl

/-! ## Between the regions -/

set_option maxHeartbeats 4000000 in
/-- After the first region the second stretch aggregates the first layer's output. -/
theorem second_entry_hidden (c : Dev nD) :
    W3 m ρ c (Proc.devRef .tc main_v48)
      = aggregate128 (W2 m ρ c (Proc.devRef .tc main_v3)) (W2 m ρ c (Proc.devRef .tc main_v6))
          (W2 m ρ c (Proc.devRef .tc main_v32)) (W2 m ρ c (Proc.devRef .tc main_v35)) := by
  show StableHlo.after hostOps1 (W2 m ρ c) (Proc.devRef .tc main_v48) = _
  after_results_simp <;> rfl

set_option maxHeartbeats 4000000 in
/-- A buffer the second stretch does not write is as the first region left it. -/
theorem second_keeps (c : Dev nD) :
    W3 m ρ c (Proc.devRef .tc main_v3) = W2 m ρ c (Proc.devRef .tc main_v3)
    ∧ W3 m ρ c (Proc.devRef .tc main_v6) = W2 m ρ c (Proc.devRef .tc main_v6)
    ∧ W3 m ρ c (Proc.devRef .tc main_v32) = W2 m ρ c (Proc.devRef .tc main_v32)
    ∧ W3 m ρ c (Proc.devRef .tc main_v34) = W2 m ρ c (Proc.devRef .tc main_v34)
    ∧ W3 m ρ c (Proc.devRef .tc main_arg4) = W2 m ρ c (Proc.devRef .tc main_arg4) := by
  refine ⟨?_, ?_, ?_, ?_, ?_⟩ <;>
  · show StableHlo.after hostOps1 (W2 m ρ c) _ = _
    after_results_simp <;> rfl

set_option maxHeartbeats 4000000 in
/-- After the second region the third stretch aggregates the second layer's output. -/
theorem third_entry_logits (c : Dev nD) :
    W5 m ρ c (Proc.devRef .tc main_v62)
      = aggregate64 (W4 m ρ c (Proc.devRef .tc main_v3)) (W4 m ρ c (Proc.devRef .tc main_v6))
          (W4 m ρ c (Proc.devRef .tc main_v32)) (W4 m ρ c (Proc.devRef .tc main_v49)) := by
  show StableHlo.after hostOps2 (W4 m ρ c) (Proc.devRef .tc main_v62) = _
  after_results_simp <;> rfl

/-! ## The edge arrays and the second layer's operands, carried through the regions -/

/-- The first region writes its output only: what the first stretch built is still there after it. -/
theorem after_first_region (c : Dev nD) :
    W2 m ρ c (Proc.devRef .tc main_v3) = Cert.ReferenceIdeal.ReadP.val_main_v3 (F := F) (m ((c : Thread nD τ).loc main_arg1))
    ∧ W2 m ρ c (Proc.devRef .tc main_v6) = Cert.ReferenceIdeal.ReadP.val_main_v6 (F := F) (m ((c : Thread nD τ).loc main_arg1))
    ∧ W2 m ρ c (Proc.devRef .tc main_v32) = Cert.ReferenceIdeal.ReadP.val_main_v32 (F := F) (m ((c : Thread nD τ).loc main_arg1))
    ∧ W2 m ρ c (Proc.devRef .tc main_v34) = shapeCast S1x64 (m ((c : Thread nD τ).loc main_arg5)) shapeCasts_S64_S1x64
    ∧ W2 m ρ c (Proc.devRef .tc main_arg4) = (m ((c : Thread nD τ).loc main_arg4)) :=
  ⟨(W2_of_ne m ρ c main_v3 (by decide)).trans (entry_sources m ρ c),
   (W2_of_ne m ρ c main_v6 (by decide)).trans (entry_targets m ρ c),
   (W2_of_ne m ρ c main_v32 (by decide)).trans (entry_weights m ρ c),
   (W2_of_ne m ρ c main_v34 (by decide)).trans (entry_bias2 m ρ c),
   (W2_of_ne m ρ c main_arg4 (by decide)).trans (entry_weight2 m ρ c)⟩

/-- … and at the second region's entry. -/
theorem at_second_region (c : Dev nD) :
    W3 m ρ c (Proc.devRef .tc main_v3) = Cert.ReferenceIdeal.ReadP.val_main_v3 (F := F) (m ((c : Thread nD τ).loc main_arg1))
    ∧ W3 m ρ c (Proc.devRef .tc main_v6) = Cert.ReferenceIdeal.ReadP.val_main_v6 (F := F) (m ((c : Thread nD τ).loc main_arg1))
    ∧ W3 m ρ c (Proc.devRef .tc main_v32) = Cert.ReferenceIdeal.ReadP.val_main_v32 (F := F) (m ((c : Thread nD τ).loc main_arg1))
    ∧ W3 m ρ c (Proc.devRef .tc main_v34) = shapeCast S1x64 (m ((c : Thread nD τ).loc main_arg5)) shapeCasts_S64_S1x64
    ∧ W3 m ρ c (Proc.devRef .tc main_arg4) = (m ((c : Thread nD τ).loc main_arg4)) := by
  obtain ⟨k3, k6, k32, k34, k4⟩ := second_keeps m ρ c
  obtain ⟨h3, h6, h32, h34, h4⟩ := after_first_region m ρ c
  exact ⟨k3.trans h3, k6.trans h6, k32.trans h32, k34.trans h34, k4.trans h4⟩

/-- … and after the second region, which again writes its output only. -/
theorem after_second_region (c : Dev nD) :
    W4 m ρ c (Proc.devRef .tc main_v3) = Cert.ReferenceIdeal.ReadP.val_main_v3 (F := F) (m ((c : Thread nD τ).loc main_arg1))
    ∧ W4 m ρ c (Proc.devRef .tc main_v6) = Cert.ReferenceIdeal.ReadP.val_main_v6 (F := F) (m ((c : Thread nD τ).loc main_arg1))
    ∧ W4 m ρ c (Proc.devRef .tc main_v32) = Cert.ReferenceIdeal.ReadP.val_main_v32 (F := F) (m ((c : Thread nD τ).loc main_arg1)) := by
  obtain ⟨h3, h6, h32, -, -⟩ := at_second_region m ρ c
  exact ⟨(W4_of_ne m ρ c main_v3 (by decide)).trans h3, (W4_of_ne m ρ c main_v6 (by decide)).trans h6,
    (W4_of_ne m ρ c main_v32 (by decide)).trans h32⟩

end Cert.KernelIdeal.HostValue

/-! ## The result, on the extended reals -/

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The first region's output: the first affine layer of the arguments. -/
theorem hidden1_eq : W2 m ρ c (Proc.devRef .tc main_v35) = Cert.Gcn.affine1 (m ((c : Thread nD τ).loc main_arg0)) (m ((c : Thread nD τ).loc main_arg2)) (m ((c : Thread nD τ).loc main_arg3)) := by
  refine (W2_arr m ρ c 3).trans ?_
  refine (Cert.KernelIdeal.Layer1.array_eq (V1 m ρ) c (m ((c : Thread nD τ).loc main_arg3)) (fun q => ?_)).trans ?_
  · show W1 m ρ c (Proc.devRef .tc main_v33) (ix2 (0 : Fin 1) q) = _
    rw [entry_bias1 m ρ c]
    exact shapeCast_a_1a_apply _ _ 0 q
  · show Cert.Gcn.affine1 (W1 m ρ c (Proc.devRef .tc main_arg0)) (W1 m ρ c (Proc.devRef .tc main_arg2)) _ = _
    rw [entry_features m ρ c, entry_weight1 m ρ c]

/-- The second region's output: the second affine layer of the first aggregate. -/
theorem hidden2_eq : W4 m ρ c (Proc.devRef .tc main_v49)
    = Cert.Gcn.affine2 (aggregate128 (Cert.ReferenceIdeal.ReadP.val_main_v3 (F := Ideal) (m ((c : Thread nD τ).loc main_arg1))) (Cert.ReferenceIdeal.ReadP.val_main_v6 (F := Ideal) (m ((c : Thread nD τ).loc main_arg1)))
        (Cert.ReferenceIdeal.ReadP.val_main_v32 (F := Ideal) (m ((c : Thread nD τ).loc main_arg1))) (Cert.Gcn.affine1 (m ((c : Thread nD τ).loc main_arg0)) (m ((c : Thread nD τ).loc main_arg2)) (m ((c : Thread nD τ).loc main_arg3))))
      (m ((c : Thread nD τ).loc main_arg4)) (m ((c : Thread nD τ).loc main_arg5)) := by
  obtain ⟨h3, h6, h32, -, -⟩ := after_first_region m ρ c
  obtain ⟨-, -, -, k34, k4⟩ := at_second_region m ρ c
  refine (W4_arr m ρ c 3).trans ?_
  refine (Cert.KernelIdeal.Layer2.array_eq (V3 m ρ) c (m ((c : Thread nD τ).loc main_arg5)) (fun q => ?_)).trans ?_
  · show W3 m ρ c (Proc.devRef .tc main_v34) (ix2 (0 : Fin 1) q) = _
    rw [k34]
    exact shapeCast_a_1a_apply _ _ 0 q
  · show Cert.Gcn.affine2 (W3 m ρ c (Proc.devRef .tc main_v48)) (W3 m ρ c (Proc.devRef .tc main_arg4)) _ = _
    rw [second_entry_hidden m ρ c, h3, h6, h32, hidden1_eq m ρ c, k4]

/-- THE RESULT: the row-wise logarithm of the softmax of the second aggregate. -/
theorem result_eq : W6 m ρ c (Proc.devRef .tc main_v63)
    = Cert.Gcn.logSoftmax (aggregate64 (Cert.ReferenceIdeal.ReadP.val_main_v3 (F := Ideal) (m ((c : Thread nD τ).loc main_arg1))) (Cert.ReferenceIdeal.ReadP.val_main_v6 (F := Ideal) (m ((c : Thread nD τ).loc main_arg1)))
        (Cert.ReferenceIdeal.ReadP.val_main_v32 (F := Ideal) (m ((c : Thread nD τ).loc main_arg1)))
        (Cert.Gcn.affine2 (aggregate128 (Cert.ReferenceIdeal.ReadP.val_main_v3 (F := Ideal) (m ((c : Thread nD τ).loc main_arg1))) (Cert.ReferenceIdeal.ReadP.val_main_v6 (F := Ideal) (m ((c : Thread nD τ).loc main_arg1)))
            (Cert.ReferenceIdeal.ReadP.val_main_v32 (F := Ideal) (m ((c : Thread nD τ).loc main_arg1))) (Cert.Gcn.affine1 (m ((c : Thread nD τ).loc main_arg0)) (m ((c : Thread nD τ).loc main_arg2)) (m ((c : Thread nD τ).loc main_arg3))))
          (m ((c : Thread nD τ).loc main_arg4)) (m ((c : Thread nD τ).loc main_arg5)))) := by
  obtain ⟨h3, h6, h32⟩ := after_second_region m ρ c
  refine (W6_arr m ρ c 1).trans ?_
  refine (Cert.KernelIdeal.RowLogSoftmax.array_eq (V5 m ρ) c).trans ?_
  show Cert.Gcn.logSoftmax (W5 m ρ c (Proc.devRef .tc main_v62)) = _
  rw [third_entry_logits m ρ c, h3, h6, h32, hidden2_eq m ρ c]

end Cert.KernelIdeal.HostValue

end
-- ==== Proof.RefStages.lean ====
/-
  The reference's three dense stages are the three array functions of the specification.

  Read index by index: the first affine layer `x · w₁ᵀ + b₁` (a transpose, a product contracting the 256 input
  channels, the bias spread over the rows) is `Σ_j x[r, j] · w₁[q, j] + b₁[q]`; the second, applied to the clamped
  aggregate, is `Σ_j max(h[r, j], 0) · w₂[q, j] + b₂[q]`; and the last stage subtracts from each row its maximum (the
  larger of -∞ and the row's maximum folded from -∞: the row's maximum) and then the logarithm of the row's sum of
  exponentials of the shifted entries (a sum from zero).
-/
import proofs.«163223_j61306363183616_1_alg».proof.Proof.RefRead
import proofs.«163223_j61306363183616_1_alg».proof.Proof.Spec
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.ShloMosaic.ValueIdx Idealize.SL.Sem

/-- The first affine layer. -/
theorem layer1_eq (x0 : (⟨S50000x256, .f32⟩ : BufTy).Contents (Elt Ideal)) (x2 : (⟨S128x256, .f32⟩ : BufTy).Contents (Elt Ideal))
    (x3 : (⟨S128, .f32⟩ : BufTy).Contents (Elt Ideal)) :
    val_main_v37 (F := Ideal) x0 x2 x3 = Cert.Gcn.affine1 x0 x2 x3 := by
  funext i
  obtain ⟨r, q, rfl⟩ : ∃ (r : Fin 50000) (q : Fin 128), i = ix2 r q := ⟨i 0, i 1, eq_ix2 i⟩
  rw [Cert.Gcn.affine1_ix2, val_main_v37_apply, val_main_v34_apply, val_main_v36_apply, val_main_v35_apply, Ideal.addf_def]
  unfold Cert.Gcn.affine1At
  refine congrArg₂ (· + ·) (Finset.sum_congr rfl fun k _ => ?_) (congrArg x3 (funext fun a => by match a with | ⟨0, _⟩ => rfl))
  rw [val_main_v33_apply]
  exact congrArg₂ (· * ·) (congrArg x0 (funext fun a => by match a with | ⟨0, _⟩ => rfl | ⟨1, _⟩ => rfl)) (congrArg x2 (funext fun a => by match a with | ⟨0, _⟩ => rfl | ⟨1, _⟩ => rfl))

/-- The second affine layer, of the clamped first aggregate. -/
theorem layer2_eq (x0 : (⟨S50000x256, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (x4 : (⟨S64x128, .f32⟩ : BufTy).Contents (Elt Ideal)) (x5 : (⟨S64, .f32⟩ : BufTy).Contents (Elt Ideal)) :
    val_main_v56 (F := Ideal) x0 x1 x2 x3 x4 x5 = Cert.Gcn.affine2 (val_main_v50 (F := Ideal) x0 x1 x2 x3) x4 x5 := by
  funext i
  obtain ⟨r, q, rfl⟩ : ∃ (r : Fin 50000) (q : Fin 64), i = ix2 r q := ⟨i 0, i 1, eq_ix2 i⟩
  rw [Cert.Gcn.affine2_ix2, val_main_v56_apply, val_main_v53_apply, val_main_v55_apply, val_main_v54_apply, Ideal.addf_def]
  unfold Cert.Gcn.affine2At
  refine congrArg₂ (· + ·) (Finset.sum_congr rfl fun k _ => ?_) (congrArg x5 (funext fun a => by match a with | ⟨0, _⟩ => rfl))
  rw [val_main_v51_apply, val_main_v52_apply, val_main_call0_v0_apply, val_main_call0_cst_apply, Ideal.maximumf_def,
    Ideal.ofBits_def, Ideal.ofBits_zero_f32]
  exact congrArg₂ (· * ·)
    (congrArg (fun j => max (val_main_v50 (F := Ideal) x0 x1 x2 x3 j) 0) (funext fun a => by match a with | ⟨0, _⟩ => rfl | ⟨1, _⟩ => rfl))
    (congrArg x4 (funext fun a => by match a with | ⟨0, _⟩ => rfl | ⟨1, _⟩ => rfl))

/-- The host's maximum along the lanes from -∞, read at row r: the row's maximum. -/
theorem host_rowmax (Z : (⟨S50000x64, .f32⟩ : BufTy).Contents (Elt Ideal)) (r : Fin 50000) :
    Host.reduce (FloatOps.maximumf (F := Ideal) (φ := .f32)) Z (val_main_call1_cst (F := Ideal)) reducesTo_S50000x64_S50000_d1 h_S_ (ix1 r)
      = Cert.Gcn.rowMax Z r := by
  have h : S50000x64.Reduces [1] S50000 := by decide
  show Host.reduce (max : EReal → EReal → EReal) Z _ _ _ _ = _
  rw [Host.reduce_eq_fold_single (max : EReal → EReal → EReal) Z _ reducesTo_S50000x64_S50000_d1 h h_S_ (ix1 r)]
  unfold Cert.Gcn.rowMax
  exact congrArg (fun f : Fin 64 → EReal => (Finset.univ : Finset (Fin 64)).fold max (Ideal.ofBits .f32 0xFF800000#32) f)
    (funext fun j => congrArg Z (funext fun ax => Fin.ext (by match ax with | ⟨0, _⟩ => rfl | ⟨1, _⟩ => rfl)))

/-- The last stage: the row-wise logarithm of the softmax of the second aggregate. -/
theorem logSoftmax_eq (x0 : (⟨S50000x256, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (x4 : (⟨S64x128, .f32⟩ : BufTy).Contents (Elt Ideal)) (x5 : (⟨S64, .f32⟩ : BufTy).Contents (Elt Ideal)) :
    val_main_v70 (F := Ideal) x0 x1 x2 x3 x4 x5 = Cert.Gcn.logSoftmax (val_main_v69 (F := Ideal) x0 x1 x2 x3 x4 x5) := by
  have hmax : ∀ r : Fin 50000, val_main_call1_v2 (F := Ideal) x0 x1 x2 x3 x4 x5 (ix1 r)
      = Cert.Gcn.rowMax (val_main_v69 (F := Ideal) x0 x1 x2 x3 x4 x5) r := by
    intro r
    rw [val_main_call1_v2_apply, val_main_call1_v1_apply, val_main_call1_cst_0_apply, Ideal.maximumf_def, Ideal.ofBits_def]
    unfold val_main_call1_v0
    rw [host_rowmax]
    exact max_eq_right ((Finset.le_fold_max _).2 (Or.inl le_rfl))
  have hshift : ∀ (r : Fin 50000) (j : Fin 64), val_main_call1_v5 (F := Ideal) x0 x1 x2 x3 x4 x5 (ix2 r j)
      = val_main_v69 (F := Ideal) x0 x1 x2 x3 x4 x5 (ix2 r j) - Cert.Gcn.rowMax (val_main_v69 (F := Ideal) x0 x1 x2 x3 x4 x5) r := by
    intro r j
    rw [val_main_call1_v5_apply, val_main_call1_v4_apply, val_main_call1_v3_apply, Ideal.subf_def]
    refine congrArg (val_main_v69 (F := Ideal) x0 x1 x2 x3 x4 x5 (ix2 r j) - ·) ?_
    exact (congrArg (val_main_call1_v2 (F := Ideal) x0 x1 x2 x3 x4 x5) (funext fun a => by match a with | ⟨0, _⟩ => rfl)).trans (hmax r)
  funext i
  obtain ⟨r, q, rfl⟩ : ∃ (r : Fin 50000) (q : Fin 64), i = ix2 r q := ⟨i 0, i 1, eq_ix2 i⟩
  rw [Cert.Gcn.logSoftmax_ix2, val_main_v70_apply, val_main_call1_v10_apply, val_main_call1_v9_apply, val_main_call1_v8_apply,
    val_main_call1_v7_apply, Ideal.subf_def, Ideal.hostUnary_log_def]
  unfold Cert.Gcn.logSoftmaxAt
  refine congrArg₂ (· - ·) (hshift r q) (congrArg Ideal.log ?_)
  rw [val_main_call1_cst_1_apply, Ideal.ofBits_def, Ideal.ofBits_zero_f32, zero_add]
  refine Finset.sum_congr rfl fun k _ => ?_
  rw [val_main_call1_v6_apply, Ideal.hostUnary_exp_def]
  refine congrArg Ideal.exp ?_
  exact (congrArg (val_main_call1_v5 (F := Ideal) x0 x1 x2 x3 x4 x5) (funext fun a => by match a with | ⟨0, _⟩ => rfl | ⟨1, _⟩ => rfl)).trans (hshift r k)

end Cert.ReferenceIdeal.Stages

end
-- ==== Proof.Bridge.lean ====
/-
  The two programs are one function of the arguments.

  The reference's two aggregation stages are the kernel program's aggregation step, applied to the same edge arrays:
  the same operations in the same order, the shapes and the dimension records of the two printed programs being the
  same literals. With the three dense stages identified with the specification's array functions on each side, the
  reference's result and the kernel program's result are the same composition
  `logSoftmax ∘ aggregate ∘ affine2 ∘ aggregate ∘ affine1` of the six arguments.
-/
import proofs.«163223_j61306363183616_1_alg».proof.Proof.HostValue
import proofs.«163223_j61306363183616_1_alg».proof.Proof.RefStages
import proofs.«163223_j61306363183616_1_alg».proof.Proof.RefFold

set_option maxRecDepth 16384

noncomputable section

namespace Cert.Bridge

open Idealize.ShloMosaic Idealize.ShloMosaic.TcCoe Idealize.SL.Sem
open Cert.ReferenceIdeal.ReadP

section Aggregation

variable {F : FTy → Type} [FloatOps F]

/-- The reference's first aggregation is the aggregation step of its first affine layer. -/
theorem ref_aggregate1 (x0 : (⟨Cert.ReferenceIdeal.S50000x256, .f32⟩ : BufTy).Contents (Elt F))
    (x1 : (⟨Cert.ReferenceIdeal.S2x800000, .i32⟩ : BufTy).Contents (Elt F))
    (x2 : (⟨Cert.ReferenceIdeal.S128x256, .f32⟩ : BufTy).Contents (Elt F))
    (x3 : (⟨Cert.ReferenceIdeal.S128, .f32⟩ : BufTy).Contents (Elt F)) :
    val_main_v50 (F := F) x0 x1 x2 x3
      = Cert.KernelIdeal.HostValue.aggregate128 (val_main_v3 (F := F) x1) (val_main_v6 (F := F) x1) (val_main_v32 (F := F) x1)
          (val_main_v37 (F := F) x0 x2 x3) := rfl

/-- The reference's second aggregation is the aggregation step of its second affine layer. -/
theorem ref_aggregate2 (x0 : (⟨Cert.ReferenceIdeal.S50000x256, .f32⟩ : BufTy).Contents (Elt F))
    (x1 : (⟨Cert.ReferenceIdeal.S2x800000, .i32⟩ : BufTy).Contents (Elt F))
    (x2 : (⟨Cert.ReferenceIdeal.S128x256, .f32⟩ : BufTy).Contents (Elt F))
    (x3 : (⟨Cert.ReferenceIdeal.S128, .f32⟩ : BufTy).Contents (Elt F))
    (x4 : (⟨Cert.ReferenceIdeal.S64x128, .f32⟩ : BufTy).Contents (Elt F))
    (x5 : (⟨Cert.ReferenceIdeal.S64, .f32⟩ : BufTy).Contents (Elt F)) :
    val_main_v69 (F := F) x0 x1 x2 x3 x4 x5
      = Cert.KernelIdeal.HostValue.aggregate64 (val_main_v3 (F := F) x1) (val_main_v6 (F := F) x1) (val_main_v32 (F := F) x1)
          (val_main_v56 (F := F) x0 x1 x2 x3 x4 x5) := rfl

end Aggregation

/-- The reference's last stage, as the composition of the specification's functions and the aggregation step. -/
theorem ref_result_eq (x0 : (⟨Cert.ReferenceIdeal.S50000x256, .f32⟩ : BufTy).Contents (Elt Ideal))
    (x1 : (⟨Cert.ReferenceIdeal.S2x800000, .i32⟩ : BufTy).Contents (Elt Ideal))
    (x2 : (⟨Cert.ReferenceIdeal.S128x256, .f32⟩ : BufTy).Contents (Elt Ideal))
    (x3 : (⟨Cert.ReferenceIdeal.S128, .f32⟩ : BufTy).Contents (Elt Ideal))
    (x4 : (⟨Cert.ReferenceIdeal.S64x128, .f32⟩ : BufTy).Contents (Elt Ideal))
    (x5 : (⟨Cert.ReferenceIdeal.S64, .f32⟩ : BufTy).Contents (Elt Ideal)) :
    val_main_v70 (F := Ideal) x0 x1 x2 x3 x4 x5
      = Cert.Gcn.logSoftmax (Cert.KernelIdeal.HostValue.aggregate64 (val_main_v3 (F := Ideal) x1) (val_main_v6 (F := Ideal) x1)
          (val_main_v32 (F := Ideal) x1)
          (Cert.Gcn.affine2 (Cert.KernelIdeal.HostValue.aggregate128 (val_main_v3 (F := Ideal) x1) (val_main_v6 (F := Ideal) x1)
              (val_main_v32 (F := Ideal) x1) (Cert.Gcn.affine1 x0 x2 x3)) x4 x5)) := by
  rw [Cert.ReferenceIdeal.Stages.logSoftmax_eq, ref_aggregate2, Cert.ReferenceIdeal.Stages.layer2_eq, ref_aggregate1,
    Cert.ReferenceIdeal.Stages.layer1_eq]

end Cert.Bridge

end
-- ==== Proof.lean ====
/-
  A two-layer graph convolution with a row-wise logarithm of the softmax: the kernel program against its reference.

  The kernel program runs three pipelined kernels — an affine layer, a second affine layer with its input clamped at
  zero from below, and the logarithm of the softmax along the rows — among plain array operations that build the
  edge arrays (endpoints with self loops, symmetric degree weights) and aggregate each layer's output over the
  edges. The reference does everything in plain array operations. On the extended reals both end with
  `logSoftmax (aggregate (affine2 (aggregate (affine1 x w₁ b₁)) w₂ b₂))`: the kernels' changes of float format are
  the identity, a block-by-block product into a zero accumulator is the whole product's row sums, and each row of
  the last stage sees that row only, so ten blocks of 5000 rows make up the whole arrays. No law that needs finite
  entries is used: sums and products are only re-indexed.

  The frames of the two kernel programs are the generated ones; the reference's is its run with the result dropped.
  The ideal pass rewrote nothing, so the preservation claim is empty.
-/
import proofs.«163223_j61306363183616_1_alg».proof.Defs
import proofs.«163223_j61306363183616_1_alg».proof.Proof.Gen.Kernel
import proofs.«163223_j61306363183616_1_alg».proof.Proof.Gen.Kernel.Skeleton
import proofs.«163223_j61306363183616_1_alg».proof.Proof.Gen.Kernel.Launch
import proofs.«163223_j61306363183616_1_alg».proof.Proof.Gen.Kernel.Points
import proofs.«163223_j61306363183616_1_alg».proof.Proof.Gen.Kernel.Frame
import proofs.«163223_j61306363183616_1_alg».proof.Proof.Gen.KernelIdeal
import proofs.«163223_j61306363183616_1_alg».proof.Proof.Gen.KernelIdeal.Skeleton
import proofs.«163223_j61306363183616_1_alg».proof.Proof.Gen.KernelIdeal.Launch
import proofs.«163223_j61306363183616_1_alg».proof.Proof.Gen.KernelIdeal.Points
import proofs.«163223_j61306363183616_1_alg».proof.Proof.Gen.KernelIdeal.Frame
import proofs.«163223_j61306363183616_1_alg».proof.Proof.Gen.ReferenceIdeal
import proofs.«163223_j61306363183616_1_alg».proof.Proof.Gen.Pre_finite_inputs
import proofs.«163223_j61306363183616_1_alg».proof.Proof.ResultRun
import proofs.«163223_j61306363183616_1_alg».proof.Proof.RefRun
import proofs.«163223_j61306363183616_1_alg».proof.Proof.RefFold
import proofs.«163223_j61306363183616_1_alg».proof.Proof.HostValue
import proofs.«163223_j61306363183616_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result array: the kernel program's run names it at the last boundary's contents,
    the reference's at the fold of its operations, and the two are the same function of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v63),
    Cert.KernelIdeal.GenRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  show StableHlo.after (Cert.ReferenceIdeal.ValueP.ops (F := Ideal)) (StableHlo.launchContents m' c) (Proc.devRef .tc Cert.ReferenceIdeal.main_v70)
    = Cert.KernelIdeal.Gen.W6 m ρ c (Proc.devRef .tc Cert.KernelIdeal.main_v63)
  rw [Cert.ReferenceIdeal.Fold.result_eq m' c, Cert.Bridge.ref_result_eq, Cert.KernelIdeal.HostValue.result_eq m ρ c,
    e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
